-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .f32 = 32 ∨ (Rect.block (s := S4096x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one run of the body leaves behind, in each of its three control cases, as values.

  The last grid coordinate k walks the contracted axis.  At k = 0 the body first stores the zero tile into the
  accumulator and then adds the tiles' product to what it reads back, so the accumulator ends at  0-tile + product.
  At k = 1 and k = 2 it adds the product to what the previous point left.  At k = 3 it does the same and then stores
  into the output tile the closing value of the accumulator it has just written.  In every case each buffer is
  written by whole-tile stores, so what a buffer holds afterwards is the last stored value, and a load that follows a
  whole-tile store reads that stored value.
-/
import proofs.«131744_j19559281066794_1_alg».proof.Proof.Gen.KernelIdeal.Frame
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.SL.Sem

variable {F : FTy → Type} [FloatOps F]

/-- A whole-tile access of a rank-2 buffer starts at the origin. -/
theorem origin2 : (![0, 0] : Fin 2 → Nat) = fun _ => 0 := funext fun a => by fin_cases a <;> rfl
/-- A whole access of a rank-1 buffer starts at the origin. -/
theorem origin1 : (![0] : Fin 1 → Nat) = fun _ => 0 := funext fun a => by fin_cases a; rfl

/-- k = 0: the accumulator ends at the step value over the reset value. -/
theorem acc_first (c : Dev nD) (i : grid0.Coords) (arg3 : Memref sig .tc .vmem S2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x1024 .f32) (x1 : Vec F S1024x1024 .f32) (x2 : Vec F S1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) origin2, View.readCov_unit_zero (S := S2048x1024) _ origin2]
  simp only [View.readAt_eq_ld, harg3.read_unread, harg4.read_unread, View.ld_unit_zero (S := S2048x1024) origin2,
    View.ld_unit_zero (S := S1024x1024) origin2]

/-- k = 1, 2: the accumulator ends at the step value over what the point before left. -/
theorem acc_middle (c : Dev nD) (i : grid0.Coords) (arg3 : Memref sig .tc .vmem S2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x1024 .f32) (x1 : Vec F S1024x1024 .f32) (x2 : Vec F S1024 .f32) (xs0 : Vec F S2048x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin2]
  simp only [View.readAt_eq_ld, harg3.read_unread, harg4.read_unread, harg7.read_unread,
    View.ld_unit_zero (S := S2048x1024) origin2, View.ld_unit_zero (S := S1024x1024) origin2]

/-- k = 3: the accumulator again ends at the step value over what the point before left, -/
theorem acc_last (c : Dev nD) (i : grid0.Coords) (arg3 : Memref sig .tc .vmem S2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .f32) (x1 : Vec F S1024x1024 .f32) (x2 : Vec F S1024 .f32) (xs0 : Vec F S2048x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin2]
  simp only [View.readAt_eq_ld, harg3.read_unread, harg4.read_unread, harg7.read_unread,
    View.ld_unit_zero (S := S2048x1024) origin2, View.ld_unit_zero (S := S1024x1024) origin2]

/-- and the output tile ends at the closing value of that accumulator and the bias tile. -/
theorem out_last (c : Dev nD) (i : grid0.Coords) (arg3 : Memref sig .tc .vmem S2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .f32) (x1 : Vec F S1024x1024 .f32) (x2 : Vec F S1024 .f32) (xs0 : Vec F S2048x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin2]
  simp only [View.readAt_eq_ld, harg3.read_unread, harg4.read_unread, harg5.read_unread, harg7.read_unread,
    View.ld_unit_zero (S := S2048x1024) origin2, View.ld_unit_zero (S := S1024x1024) origin2,
    View.ld_unit_zero (S := S1024) origin1, View.readCov_unit_zero (S := S2048x1024) _ origin2]

end Cert.KernelIdeal.Tile

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Payload.lean ====
/-
  What the kernel's three stored values are, entry by entry, over the extended reals.

  The body stores three things.  The reset value is the zero tile.  The accumulation step stores, at entry (r, c) of
  the 2048×1024 tile, the accumulator's entry plus the product of row r of the 2048×1024 input tile with column c
  of the 1024×1024 weight tile (the narrowing of both tiles to a shorter float format is the identity on extended
  reals, and the product is taken into a zero tile).  The closing step stores the accumulator's entry plus the bias
  tile's entry for column c — the bias vector laid out as one row and repeated down the 2048 rows — cut off below
  at zero.
-/
import proofs.«131744_j19559281066794_1_alg».proof.Proof.Gen.KernelIdeal.Skeleton
import proofs.«131744_j19559281066794_1_alg».proof.Proof.LibPlainDot
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-- The tile product contracts the input tile's columns with the weight tile's rows, nothing batched. -/
theorem plain : PlainDot.IsPlain dot_S2048x1024_S1024x1024_S2048x1024_1_0_0_1_n_n :=
  ⟨rfl, rfl, rfl, rfl, rfl, rfl⟩

/-- The reset value is zero everywhere. -/
theorem reset_apply (r : Fin 2048) (c : Fin 1024) : k0_pay1 (F := Ideal) (ix2 r c) = 0 := by
  unfold k0_pay1
  rw [shapeCast_self]
  exact Ideal.ofBits_zero_f32

/-- The accumulation step at an entry: the accumulator's entry plus row r of the input tile times column c of the
    weight tile. -/
theorem step_apply (xt : Vec Ideal S2048x1024 .f32) (wt : Vec Ideal S1024x1024 .f32) (acc : Vec Ideal S2048x1024 .f32)
    (r : Fin 2048) (c : Fin 1024) :
    k0_pay2 (F := Ideal) xt wt acc (ix2 r c) = acc (ix2 r c) + ∑ i : Fin 1024, xt (ix2 r i) * wt (ix2 i c) := by
  unfold k0_pay2
  rw [shapeCast_self, addf_apply]
  refine congrArg (acc (ix2 r c) + ·) ?_
  exact PlainDot.matmul_zero_apply plain none _ _ r c

/-- The closing step at an entry: accumulator plus the column's bias, cut off below at zero. -/
theorem close_apply (acc : Vec Ideal S2048x1024 .f32) (bt : Vec Ideal S1024 .f32) (r : Fin 2048) (c : Fin 1024) :
    k0_pay3 (F := Ideal) acc bt (ix2 r c) = max (acc (ix2 r c) + bt (ix1 c)) (Ideal.ofBits .f32 0x00000000#32) := by
  unfold k0_pay3
  rw [maximumf_apply, addf_apply, broadcastTo_1b_ab_apply, shapeCast_a_1a_apply]
  rfl

end Cert.KernelIdeal.Tile

end
-- ==== Proof.Tiles.lean ====
/-
  Where the tiles sit.

  The grid has 2 × 4 × 4 points, walked with the last coordinate fastest, so point number t has coordinates
  (t / 16, (t / 4) mod 4, t mod 4) = (row tile, column tile, step along the contracted axis).  At point t the input
  tile is rows 2048·(t / 16) … and columns 1024·(t mod 4) … of the input; the weight tile is rows 1024·(t mod 4) …
  and columns 1024·((t / 4) mod 4) … of the weights; the bias tile is entries 1024·((t / 4) mod 4) … of the bias; and
  the output tile is rows 2048·(t / 16) … and columns 1024·((t / 4) mod 4) … of the result.  An entry of a tile is the
  array's entry at the tile's first row and column plus the entry's position inside the tile.
-/
import proofs.«131744_j19559281066794_1_alg».proof.Proof.Gen.KernelIdeal.Frame
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The tile numbers of every window at every point, from the point's number. -/
theorem tile_numbers : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

/-- The three argument arrays and the three input tiles at a point, at their literal shapes. -/
abbrev xArr (c : Dev nD) : Vec F S4096x4096 .f32 := V m c main_arg0
abbrev wArr (c : Dev nD) : Vec F S4096x4096 .f32 := V m c main_arg1
abbrev bArr (c : Dev nD) : Vec F S4096 .f32 := V m c main_arg2
abbrev xTile (c : Dev nD) (t : Fin cfg0.N) : Vec F S2048x1024 .f32 := iblk m c 0 t
abbrev wTile (c : Dev nD) (t : Fin cfg0.N) : Vec F S1024x1024 .f32 := iblk m c 1 t
abbrev bTile (c : Dev nD) (t : Fin cfg0.N) : Vec F S1024 .f32 := iblk m c 2 t

/-- An entry of the input tile is the input's entry at the tile's offset. -/
theorem xTile_apply (c : Dev nD) (t : Fin cfg0.N) (r : Fin 2048) (k : Fin 1024) (p q : Fin 4096)
    (hp : p.val = 2048 * (t.val / 16) + r.val) (hq : q.val = 1024 * (t.val % 4) + k.val) :
    xTile m c t (ix2 r k) = xArr m c (ix2 p q) := by
  obtain ⟨e0, e1, -⟩ := tile_numbers t
  show V m c main_arg0 (((cfg0.win 0).blk t).view.emb (ix2 r k)) = V m c main_arg0 (ix2 p q)
  refine congrArg (V m c main_arg0) ?_
  funext a; apply Fin.ext
  match a with
  | ⟨0, _⟩ => show win0_0.index t (0 : Fin 2) * 2048 + 1 * r.val = p.val; omega
  | ⟨1, _⟩ => show win0_0.index t (1 : Fin 2) * 1024 + 1 * k.val = q.val; omega

/-- An entry of the weight tile is the weights' entry at the tile's offset. -/
theorem wTile_apply (c : Dev nD) (t : Fin cfg0.N) (k : Fin 1024) (j : Fin 1024) (p q : Fin 4096)
    (hp : p.val = 1024 * (t.val % 4) + k.val) (hq : q.val = 1024 * (t.val / 4 % 4) + j.val) :
    wTile m c t (ix2 k j) = wArr m c (ix2 p q) := by
  obtain ⟨-, -, e0, e1, -⟩ := tile_numbers t
  show V m c main_arg1 (((cfg0.win 1).blk t).view.emb (ix2 k j)) = V m c main_arg1 (ix2 p q)
  refine congrArg (V m c main_arg1) ?_
  funext a; apply Fin.ext
  match a with
  | ⟨0, _⟩ => show win0_1.index t (0 : Fin 2) * 1024 + 1 * k.val = p.val; omega
  | ⟨1, _⟩ => show win0_1.index t (1 : Fin 2) * 1024 + 1 * j.val = q.val; omega

/-- An entry of the bias tile is the bias's entry at the tile's offset. -/
theorem bTile_apply (c : Dev nD) (t : Fin cfg0.N) (j : Fin 1024) (q : Fin 4096)
    (hq : q.val = 1024 * (t.val / 4 % 4) + j.val) :
    bTile m c t (ix1 j) = bArr m c (ix1 q) := by
  obtain ⟨-, -, -, -, e0, -⟩ := tile_numbers t
  show V m c main_arg2 (((cfg0.win 2).blk t).view.emb (ix1 j)) = V m c main_arg2 (ix1 q)
  refine congrArg (V m c main_arg2) ?_
  funext a; apply Fin.ext
  match a with
  | ⟨0, _⟩ => show win0_2.index t (0 : Fin 1) * 1024 + 1 * j.val = q.val; omega

end Cert.KernelIdeal.Tile

end
-- ==== Proof.BlockSum.lean ====
/-
  A sum over 4096 terms, cut into four consecutive runs of 1024.

  The contraction axis of the product has extent 4096 and the kernel walks it in four steps of 1024: step s
  covers the coordinates 1024·s … 1024·s + 1023.  Every coordinate below 4096 is 1024·s + r for exactly one
  pair (s, r) with s < 4 and r < 1024, so the whole sum is the sum of the four partial sums.  Only commutativity
  and associativity of the addition are used, so the statement holds in any commutative additive monoid — in
  particular for extended reals, infinities included.
-/
import Mathlib.Algebra.BigOperators.Fin
import Mathlib.Logic.Equiv.Fin.Basic

open scoped BigOperators

namespace BlockSum

/-- Coordinate `r` of run `s`, as a coordinate of the whole axis. -/
abbrev at4 (s : Fin 4) (r : Fin 1024) : Fin 4096 := ⟨1024 * s.val + r.val, by have := s.isLt; have := r.isLt; omega⟩

/-- The whole sum is the sum over the runs of the sums inside each run. -/
theorem sum_runs {β : Type*} [AddCommMonoid β] (f : Fin 4096 → β) :
    ∑ i : Fin 4096, f i = ∑ s : Fin 4, ∑ r : Fin 1024, f (at4 s r) := by
  have h := (finProdFinEquiv (m := 4) (n := 1024)).sum_comp f
  rw [← h, Fintype.sum_prod_type]
  refine Finset.sum_congr rfl fun s _ => Finset.sum_congr rfl fun r _ => ?_
  refine congrArg f (Fin.ext ?_)
  show r.val + 1024 * s.val = 1024 * s.val + r.val
  omega

/-- The same with the four runs written out, grouped from the left as an accumulator adds them. -/
theorem sum_four {β : Type*} [AddCommMonoid β] (f : Fin 4096 → β) :
    ∑ i : Fin 4096, f i
      = (∑ r : Fin 1024, f (at4 0 r)) + (∑ r : Fin 1024, f (at4 1 r)) + (∑ r : Fin 1024, f (at4 2 r))
        + (∑ r : Fin 1024, f (at4 3 r)) := by
  rw [sum_runs, Fin.sum_univ_four]

end BlockSum
-- ==== Proof.Spec.lean ====
/-
  The function both programs compute: a dense layer followed by a rectifier.

  For a 4096×4096 input `x`, a 4096×4096 weight matrix `w` and a bias row `b` of length 4096, entry (p, q) of the
  result is  max (∑ᵢ x(p, i) · w(i, q) + b(q), 0),  the sum over the 4096 coordinates of the contracted axis, read over
  the extended reals.  The contracted axis is also cut into four consecutive runs of 1024 coordinates; the partial
  product over run `s` is the sum of the terms with i in that run, and the full product is the four partial products
  added up.  Nothing here needs the entries to be finite: only commutativity and associativity of the sum are used.
-/
import Idealize.ShloMosaic.Lib.ValueIdx
import Idealize.ShloMosaic.PureOps.Ideal.Laws
import proofs.«131744_j19559281066794_1_alg».proof.Proof.BlockSum

noncomputable section

open scoped BigOperators

namespace DenseRelu

open Idealize.ShloMosaic Idealize.ShloMosaic.ValueIdx BlockSum

/-- A 4096×4096 array of extended reals. -/
abbrev Mat : Type := (⟨2, ![4096, 4096]⟩ : Shape).Idx → EReal
/-- A row of 4096 extended reals. -/
abbrev Row : Type := (⟨1, ![4096]⟩ : Shape).Idx → EReal

/-- Entry (p, q) of the matrix product `x · w`. -/
def dotAt (x w : Mat) (p q : Fin 4096) : EReal := ∑ i : Fin 4096, x (ix2 p i) * w (ix2 i q)

/-- The part of entry (p, q) of `x · w` contributed by run `s` of the contracted axis. -/
def partAt (x w : Mat) (p q : Fin 4096) (s : Fin 4) : EReal :=
  ∑ r : Fin 1024, x (ix2 p (at4 s r)) * w (ix2 (at4 s r) q)

/-- The layer: product, plus the bias of the column, cut off below at zero. -/
def out (x w : Mat) (b : Row) : Mat :=
  fun j => max (dotAt x w (j 0) (j 1) + b (ix1 (j 1))) (Ideal.ofBits .f32 0x00000000#32)

/-- An entry of the product is the four partial products, added from the left. -/
theorem dotAt_eq_parts (x w : Mat) (p q : Fin 4096) :
    dotAt x w p q = partAt x w p q 0 + partAt x w p q 1 + partAt x w p q 2 + partAt x w p q 3 :=
  sum_four fun i => x (ix2 p i) * w (ix2 i q)

end DenseRelu

end
-- ==== Proof.Fold.lean ====
/-
  The accumulator over a run of four points, and the output tile at the run's last point.

  Points 4u, 4u+1, 4u+2, 4u+3 share a row tile and a column tile and walk the four steps of the contracted axis.
  Point n adds to entry (r, j) of the accumulator the product of row r of its input tile with column j of its weight
  tile — its addend.  The first point of the run starts from zero, each later one from what the point before left, so
  after the run's last point the accumulator's entry is zero plus the four addends.  The addend of step s is exactly the
  partial product over run s of the contracted axis, at row 2048·(tile row) + r of the input and column
  1024·(tile column) + j of the weights; the four of them make the full product's entry.  The output tile then holds
  that entry plus the column's bias, cut off below at zero: the layer's value at that row and column.
-/
import proofs.«131744_j19559281066794_1_alg».proof.Proof.Gen.KernelIdeal.Value
import proofs.«131744_j19559281066794_1_alg».proof.Proof.Pieces
import proofs.«131744_j19559281066794_1_alg».proof.Proof.Payload
import proofs.«131744_j19559281066794_1_alg».proof.Proof.Tiles
import proofs.«131744_j19559281066794_1_alg».proof.Proof.Spec

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx DenseRelu BlockSum

variable (m : (ℓ : Loc nD τ sig) → Buf (Elt Ideal) ℓ)

/-- What point number `n` adds to entry `i` of the accumulator: row `i 0` of its input tile times column `i 1` of
    its weight tile (for a number past the grid, which no statement uses, zero). -/
def addend (c : Dev nD) (n : ℕ) (i : S2048x1024.Idx) : EReal :=
  if h : n < cfg0.N then ∑ k : Fin 1024, xTile m c ⟨n, h⟩ (ix2 (i 0) k) * wTile m c ⟨n, h⟩ (ix2 k (i 1)) else 0

theorem addend_of_lt (c : Dev nD) (n : ℕ) (h : n < cfg0.N) (r : Fin 2048) (j : Fin 1024) :
    addend m c n (ix2 r j) = ∑ k : Fin 1024, xTile m c ⟨n, h⟩ (ix2 r k) * wTile m c ⟨n, h⟩ (ix2 k j) := by
  unfold addend; rw [dif_pos h]

/-- The first point of a run leaves zero plus its addend, whatever the accumulator held. -/
theorem first_step (c : Dev nD) (n : ℕ) (hn : n < cfg0.N) (h0 : n % 4 = 0) (acc : Vec Ideal S2048x1024 .f32)
    (i : S2048x1024.Idx) : Value.scAt0_0 m c n hn acc i = (0 : EReal) + addend m c n i := by
  have h1 : ¬ n % 4 = 3 := by omega
  obtain ⟨r, j, rfl⟩ : ∃ (r : Fin 2048) (j : Fin 1024), i = ix2 r j := ⟨i 0, i 1, eq_ix2 i⟩
  unfold Value.scAt0_0
  rw [dif_pos h0, dif_neg h1, acc_first]
  refine (step_apply (xTile m c ⟨n, hn⟩) (wTile m c ⟨n, hn⟩) (k0_pay1 (F := Ideal)) r j).trans ?_
  rw [reset_apply, addend_of_lt m c n hn]

/-- Every later point of a run leaves what the point before left plus its addend. -/
theorem later_step (c : Dev nD) (n : ℕ) (hn : n < cfg0.N) (h0 : ¬ n % 4 = 0) (acc : Vec Ideal S2048x1024 .f32)
    (i : S2048x1024.Idx) : Value.scAt0_0 m c n hn acc i = acc i + addend m c n i := by
  obtain ⟨r, j, rfl⟩ : ∃ (r : Fin 2048) (j : Fin 1024), i = ix2 r j := ⟨i 0, i 1, eq_ix2 i⟩
  unfold Value.scAt0_0
  rw [dif_neg h0]
  by_cases h1 : n % 4 = 3
  · rw [dif_pos h1, acc_last]
    refine (step_apply (xTile m c ⟨n, hn⟩) (wTile m c ⟨n, hn⟩) acc r j).trans ?_
    rw [addend_of_lt m c n hn]
  · rw [dif_neg h1, acc_middle]
    refine (step_apply (xTile m c ⟨n, hn⟩) (wTile m c ⟨n, hn⟩) acc r j).trans ?_
    rw [addend_of_lt m c n hn]

/-- The accumulator after point `t`: zero plus the addends of its run's points up to `t`. -/
theorem acc_run (c : Dev nD) (t : Fin cfg0.N) (i : S2048x1024.Idx) :
    (outsAt0 m c t.val t.isLt).2 i
      = (0 : EReal) + ∑ s ∈ Finset.range (t.val % 4 + 1), addend m c (4 * (t.val / 4) + s) i := by
  rw [Value.soutsAt0_0_eq m c t]
  exact Pipeline.accAt_add_apply (ι := S2048x1024.Idx) (β := EReal) _ _ (fun _ => (0 : EReal)) (addend m c)
    (4 * (t.val / 4)) 3
    (fun h i => first_step m c _ h (by omega) _ i)
    (fun n h acc i hb he => later_step m c n h (by omega) acc i)
    (t.val % 4) (by omega) _ i

/-- The addend of step `s` of the run of point `t` is the partial product over run `s` of the contracted axis. -/
theorem addend_part (c : Dev nD) (t : Fin cfg0.N) (s : ℕ) (hs : s < 4) (r : Fin 2048) (j : Fin 1024) (p q : Fin 4096)
    (hp : p.val = 2048 * (t.val / 16) + r.val) (hq : q.val = 1024 * (t.val / 4 % 4) + j.val) :
    addend m c (4 * (t.val / 4) + s) (ix2 r j) = partAt (xArr m c) (wArr m c) p q ⟨s, hs⟩ := by
  have hN : t.val < 32 := lt_of_lt_of_eq t.isLt N_0
  have hn : 4 * (t.val / 4) + s < cfg0.N := lt_of_lt_of_eq (by omega : 4 * (t.val / 4) + s < 32) N_0.symm
  rw [addend_of_lt m c _ hn]
  unfold partAt
  refine Finset.sum_congr rfl fun k _ => ?_
  rw [xTile_apply m c ⟨_, hn⟩ r k p (at4 ⟨s, hs⟩ k) (by show p.val = 2048 * ((4 * (t.val / 4) + s) / 16) + r.val; omega)
        (by show 1024 * s + k.val = 1024 * ((4 * (t.val / 4) + s) % 4) + k.val; omega),
    wTile_apply m c ⟨_, hn⟩ k j (at4 ⟨s, hs⟩ k) q (by show 1024 * s + k.val = 1024 * ((4 * (t.val / 4) + s) % 4) + k.val; omega)
        (by show q.val = 1024 * ((4 * (t.val / 4) + s) / 4 % 4) + j.val; omega)]

/-- At the last point of a run the accumulator's entry is the full product's entry. -/
theorem acc_at_last (c : Dev nD) (t : Fin cfg0.N) (h1 : t.val % 4 = 3) (r : Fin 2048) (j : Fin 1024) (p q : Fin 4096)
    (hp : p.val = 2048 * (t.val / 16) + r.val) (hq : q.val = 1024 * (t.val / 4 % 4) + j.val) :
    (outsAt0 m c t.val t.isLt).2 (ix2 r j) = dotAt (xArr m c) (wArr m c) p q := by
  rw [acc_run, h1, dotAt_eq_parts, Finset.sum_range_succ, Finset.sum_range_succ, Finset.sum_range_succ,
    Finset.sum_range_one, zero_add,
    addend_part m c t 0 (by omega) r j p q hp hq, addend_part m c t 1 (by omega) r j p q hp hq,
    addend_part m c t 2 (by omega) r j p q hp hq, addend_part m c t 3 (by omega) r j p q hp hq]
  rfl

/-- At the last point of a run the output tile's entry is the layer's value at the tile's offset. -/
theorem out_at_last (c : Dev nD) (t : Fin cfg0.N) (h1 : t.val % 4 = 3) (r : Fin 2048) (j : Fin 1024) (p q : Fin 4096)
    (hp : p.val = 2048 * (t.val / 16) + r.val) (hq : q.val = 1024 * (t.val / 4 % 4) + j.val) :
    (outsAt0 m c t.val t.isLt).1 (ix2 r j) = out (xArr m c) (wArr m c) (bArr m c) (ix2 p q) := by
  have h0 : ¬ t.val % 4 = 0 := by omega
  have e : (outsAt0 m c t.val t.isLt).1 = k0_pay3 (outsAt0 m c t.val t.isLt).2 (bTile m c t) := by
    rw [outsAt0_C m c t h0 h1]; dsimp only; rw [out_last, acc_last]
  rw [e]
  refine (close_apply (outsAt0 m c t.val t.isLt).2 (bTile m c t) r j).trans ?_
  rw [acc_at_last m c t h1 r j p q hp hq, bTile_apply m c t j q hq]
  rfl

end Cert.KernelIdeal.Tile

end
-- ==== Proof.Whole.lean ====
/-
  From the output tiles to the whole result.

  The output's 2048×1024 tile is written back only at the last point of each run of four (the points whose number is
  3 mod 4); there it holds the layer's values at the tile's rows and columns, so what is written back is that tile of
  the layer's array.  The eight written tiles — two tile rows by four tile columns — fill the 4096×4096 result: entry
  (p, q) lies in the tile written at point 16·(p / 2048) + 4·(q / 1024) + 3.  So after the run the whole result is
  the layer of the three argument arrays, and those arrays are as they were.
-/
import proofs.«131744_j19559281066794_1_alg».proof.Proof.Fold

noncomputable section

namespace Cert.KernelIdeal.Tile

open Cert.KernelIdeal Cert.KernelIdeal.Gen Idealize.ShloMosaic Idealize.ShloMosaic.TcCoe Idealize.SL.Sem
open Idealize.ShloMosaic.Pipeline (Dat)
open Idealize.ShloMosaic.ValueIdx DenseRelu

variable (m : (ℓ : Loc nD τ sig) → Buf (Elt Ideal) ℓ) (ρ : Dev nD → PrngReg)

/-- What a writing point writes back is its tile of the layer of the argument arrays. -/
theorem written_eq (c : Dev nD) (t : Fin cfg0.N) (hf : (cfg0.win 3).flush t = true) :
    (dats m 0 c).flushed 3 t
      = ((cfg0.win 3).blk t).view.read (Elt Ideal) (out (xArr m c) (wArr m c) (bArr m c)) := by
  have h1 : t.val % 4 = 3 := (flush0_3 t).mp hf
  have hN : t.val < 32 := lt_of_lt_of_eq t.isLt N_0
  obtain ⟨-, -, -, -, -, e0, e1⟩ := tile_numbers t
  rw [Value.flushed3 m c t]
  funext y
  show (outsAt0 m c t.val t.isLt).1 y
    = out (xArr m c) (wArr m c) (bArr m c) (((cfg0.win 3).blk t).view.emb y)
  have hy0 : (y 0).val < 2048 := (y 0).isLt
  have hy1 : (y 1).val < 1024 := (y 1).isLt
  have key := out_at_last m c t h1 (y 0) (y 1) ⟨2048 * (t.val / 16) + (y 0).val, by omega⟩
    ⟨1024 * (t.val / 4 % 4) + (y 1).val, by omega⟩ rfl rfl
  have hy : (outsAt0 m c t.val t.isLt).1 y = (outsAt0 m c t.val t.isLt).1 (ix2 (y 0) (y 1)) :=
    congrArg (outsAt0 m c t.val t.isLt).1 (eq_ix2 (n0 := 2048) (n1 := 1024) y)
  refine hy.trans (key.trans ?_)
  refine congrArg (out (xArr m c) (wArr m c) (bArr m c)) ?_
  funext a; apply Fin.ext
  match a with
  | ⟨0, _⟩ => show 2048 * (t.val / 16) + (y 0).val = win0_3.index t (0 : Fin 2) * 2048 + 1 * (y 0).val; omega
  | ⟨1, _⟩ => show 1024 * (t.val / 4 % 4) + (y 1).val = win0_3.index t (1 : Fin 2) * 1024 + 1 * (y 1).val; omega

/-- An entry of the result is in point `t`'s tile iff each coordinate is in the tile's range on its axis. -/
theorem mem_tile (t : Fin cfg0.N) (i : S4096x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v0).slice (win0_3.rect t)).set ↔ _
  rw [View.set_slice_whole, Rect.mem_set_unit]
  exact Iff.rfl

/-- Every entry of the result is in the tile some writing point writes back. -/
theorem tiles_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hn : 16 * ((i 0).val / 2048) + 4 * ((i 1).val / 1024) + 3 < cfg0.N :=
    lt_of_lt_of_eq (by omega : 16 * ((i 0).val / 2048) + 4 * ((i 1).val / 1024) + 3 < 32) N_0.symm
  refine ⟨⟨16 * ((i 0).val / 2048) + 4 * ((i 1).val / 1024) + 3, hn⟩, (flush0_3 _).mpr ?_, ?_⟩
  · show (16 * ((i 0).val / 2048) + 4 * ((i 1).val / 1024) + 3) % 4 = 3; omega
  · obtain ⟨-, -, -, -, -, e0, e1⟩ := tile_numbers ⟨16 * ((i 0).val / 2048) + 4 * ((i 1).val / 1024) + 3, hn⟩
    have e0' : win0_3.index ⟨16 * ((i 0).val / 2048) + 4 * ((i 1).val / 1024) + 3, hn⟩ (0 : Fin 2)
        = (16 * ((i 0).val / 2048) + 4 * ((i 1).val / 1024) + 3) / 16 := e0
    have e1' : win0_3.index ⟨16 * ((i 0).val / 2048) + 4 * ((i 1).val / 1024) + 3, hn⟩ (1 : Fin 2)
        = (16 * ((i 0).val / 2048) + 4 * ((i 1).val / 1024) + 3) / 4 % 4 := e1
    rw [mem_tile]
    intro a
    match a with
    | ⟨0, _⟩ =>
      show win0_3.index ⟨16 * ((i 0).val / 2048) + 4 * ((i 1).val / 1024) + 3, hn⟩ (0 : Fin 2) * 2048 ≤ (i 0).val
        ∧ (i 0).val < win0_3.index ⟨16 * ((i 0).val / 2048) + 4 * ((i 1).val / 1024) + 3, hn⟩ (0 : Fin 2) * 2048 + 2048
      omega
    | ⟨1, _⟩ =>
      show win0_3.index ⟨16 * ((i 0).val / 2048) + 4 * ((i 1).val / 1024) + 3, hn⟩ (1 : Fin 2) * 1024 ≤ (i 1).val
        ∧ (i 1).val < win0_3.index ⟨16 * ((i 0).val / 2048) + 4 * ((i 1).val / 1024) + 3, hn⟩ (1 : Fin 2) * 1024 + 1024
      omega

/-- After the run the result array is the layer of the argument arrays. -/
theorem result_eq (c : Dev nD) :
    (dats m 0 c).arrAt 3 cfg0.N = out (xArr m c) (wArr m c) (bArr m c) :=
  (dats m 0 c).arrAt_eq_of_cover 3 (out (xArr m c) (wArr m c) (bArr m c)) (fun t hf => written_eq m c t hf) tiles_cover

/-- The kernel's run: the result ends at the layer of the arguments as launched, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩) (Value.run_blocks m ρ)

end Cert.KernelIdeal.Tile

end
-- ==== Proof.Reference.lean ====
/-
  The reference computes the layer.

  The reference multiplies the input by the weights with one contraction over all 4096 coordinates, lays the bias out
  as a row and repeats it down the rows, adds, and takes the maximum with an array of zeros.  Read at entry (p, q) that
  is  max (∑ᵢ x(p, i) · w(i, q) + b(q), 0): the repeated bias row reads the bias at the entry's column, whatever the row.
-/
import proofs.«131744_j19559281066794_1_alg».proof.Proof.Gen.ReferenceIdeal.Read
import proofs.«131744_j19559281066794_1_alg».proof.Proof.Spec

noncomputable section

open scoped BigOperators

namespace Cert.ReferenceIdeal.Layer

open Cert.ReferenceIdeal Cert.ReferenceIdeal.Gen Cert.ReferenceIdeal.Read Idealize.ShloMosaic
open Idealize.ShloMosaic.ValueIdx DenseRelu

/-- The left factor of term `k` of entry `i`'s contraction sits in the entry's row, at column `k`. -/
theorem left_at (i : S4096x4096.Idx) (k : Fin 4096) : lidx_main_v0 i k = ix2 (i 0) k :=
  funext fun a => match a with | ⟨0, _⟩ => rfl | ⟨1, _⟩ => rfl

/-- The right factor sits in row `k`, at the entry's column. -/
theorem right_at (i : S4096x4096.Idx) (k : Fin 4096) : ridx_main_v0 i k = ix2 k (i 1) :=
  funext fun a => match a with | ⟨0, _⟩ => rfl | ⟨1, _⟩ => rfl

/-- The repeated bias row, at entry `i`, reads the bias at the entry's column. -/
theorem bias_at (i : S4096x4096.Idx) : idx_main_v1 (idx_main_v2 i) = ix1 (i 1) :=
  funext fun a => match a with | ⟨0, _⟩ => rfl

/-- The reference's result is the layer of its three arguments. -/
theorem result_eq (x w : (⟨S4096x4096, .f32⟩ : BufTy).Contents (Elt Ideal)) (b : (⟨S4096, .f32⟩ : BufTy).Contents (Elt Ideal)) :
    val_main_v4 (F := Ideal) x w b = out x w b := by
  funext i
  rw [val_main_v4_apply, val_main_v3_apply, val_main_v0_apply, val_main_v2_apply, val_main_v1_apply,
    val_main_call0_v0_apply, val_main_call0_cst_apply]
  simp only [left_at, right_at, bias_at]
  rfl

end Cert.ReferenceIdeal.Layer

end
-- ==== Proof.lean ====
/-
  A dense layer with a rectifier, tiled, against the same layer computed at once.

  Both programs take a 4096×4096 input x, a 4096×4096 weight matrix w and a bias b of length 4096 and return the
  4096×4096 array whose entry (p, q) is  max (∑ᵢ x(p, i) · w(i, q) + b(q), 0).

  The reference forms the product with one contraction over all 4096 coordinates, adds the bias repeated down the
  rows, and takes the maximum with zero.

  The kernel works on a 2 × 4 × 4 grid: a 2048-row tile of the result, a 1024-column tile of the result, and a step
  of 1024 along the contracted axis.  At step 0 it clears a 2048×1024 accumulator; at every step it adds to the
  accumulator the product of the step's 2048×1024 input tile and 1024×1024 weight tile (narrowed to a shorter float
  format first, which over the extended reals changes nothing); at step 3 it adds the column tile's bias, takes the
  maximum with zero and stores the result tile, which is then written back.

  Over the extended reals the two agree entry by entry: the accumulator after the four steps holds zero plus the four
  partial sums over the runs 0…1023, 1024…2047, 2048…3071, 3072…4095 of the contracted axis, and a sum over 4096 terms
  is the sum of its four consecutive runs of 1024.  That regrouping uses only commutativity and associativity of the
  addition, which hold for infinite values too, so the inputs' finiteness is never used.  The eight written tiles fill
  the result.  The kernel is read as printed (nothing was rewritten for the exact reading), each program terminates
  without a fault and leaves its three arguments unchanged.
-/
import proofs.«131744_j19559281066794_1_alg».proof.Defs
import proofs.«131744_j19559281066794_1_alg».proof.Proof.Gen.Kernel
import proofs.«131744_j19559281066794_1_alg».proof.Proof.Gen.Kernel.Skeleton
import proofs.«131744_j19559281066794_1_alg».proof.Proof.Gen.Kernel.Launch
import proofs.«131744_j19559281066794_1_alg».proof.Proof.Gen.Kernel.Points
import proofs.«131744_j19559281066794_1_alg».proof.Proof.Gen.Kernel.Frame
import proofs.«131744_j19559281066794_1_alg».proof.Proof.Gen.KernelIdeal
import proofs.«131744_j19559281066794_1_alg».proof.Proof.Gen.KernelIdeal.Skeleton
import proofs.«131744_j19559281066794_1_alg».proof.Proof.Gen.KernelIdeal.Launch
import proofs.«131744_j19559281066794_1_alg».proof.Proof.Gen.KernelIdeal.Points
import proofs.«131744_j19559281066794_1_alg».proof.Proof.Gen.KernelIdeal.Frame
import proofs.«131744_j19559281066794_1_alg».proof.Proof.Gen.ReferenceIdeal
import proofs.«131744_j19559281066794_1_alg».proof.Proof.Gen.Pre_finite_inputs
import proofs.«131744_j19559281066794_1_alg».proof.Proof.Gen.KernelIdeal.Value
import proofs.«131744_j19559281066794_1_alg».proof.Proof.Gen.ReferenceIdeal.Run
import proofs.«131744_j19559281066794_1_alg».proof.Proof.Gen.ReferenceIdeal.Read
import proofs.«131744_j19559281066794_1_alg».proof.Proof.Whole
import proofs.«131744_j19559281066794_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result and the reference's result are both the layer of those arguments. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Layer.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
